-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x256x256 : Shape := ⟨4, ![16, 64, 256, 256]⟩
abbrev S128x128x4 : Shape := ⟨3, ![128, 128, 4]⟩
abbrev S_ : Shape := ⟨0, ![]⟩

class Facts : Prop where
  bcast_S_S16x64x256x256 : S_.BroadcastsInDim S16x64x256x256 (![] : Fin 0 → Fin S16x64x256x256.rank)
  reducesTo_S16x64x256x256_S_d0_1_2_3 : S16x64x256x256.ReducesTo [0, 1, 2, 3] S_
  h_S_ : 0 < S_.numel

variable [Facts]

def fn {F : FTy → Type} [FloatOps F] (main_arg0 : FVec F S16x64x256x256 .f32) (main_arg1 : IVec S128x128x4 32) : IVec S_ 1 :=
  let main_v0 : FVec F S16x64x256x256 .f32 := Host.absf main_arg0
  let main_cst : FVec F S_ .f32 := constant S_ .f32 0x7F800000#32
  let main_v1 : FVec F S16x64x256x256 .f32 := broadcastInDim S16x64x256x256 ![] bcast_S_S16x64x256x256 main_cst
  let main_v2 : IVec S16x64x256x256 1 := cmpf .olt main_v0 main_v1
  let main_c : IVec S_ 1 := constantI S_ 1 1#1
  let main_v3 : IVec S_ 1 := (fun x v => Host.reduce IntOp.andi x v reducesTo_S16x64x256x256_S_d0_1_2_3 h_S_) main_v2 main_c
  main_v3
-- ==== Kernel.lean ====
abbrev S16x64x256x256 : Shape := ⟨4, ![16, 64, 256, 256]⟩
abbrev S128x128x4 : Shape := ⟨3, ![128, 128, 4]⟩
abbrev S16x64x65536 : Shape := ⟨3, ![16, 64, 65536]⟩
abbrev S4x128x128 : Shape := ⟨3, ![4, 128, 128]⟩
abbrev S65536 : Shape := ⟨1, ![65536]⟩
abbrev S_ : Shape := ⟨0, ![]⟩
abbrev S65536x1 : Shape := ⟨2, ![65536, 1]⟩
abbrev S1 : Shape := ⟨1, ![1]⟩
abbrev S1x1 : Shape := ⟨2, ![1, 1]⟩
abbrev S16x64x4x128x128 : Shape := ⟨5, ![16, 64, 4, 128, 128]⟩
abbrev S16x64x128x128 : Shape := ⟨4, ![16, 64, 128, 128]⟩
abbrev S1x32x4x128x128 : Shape := ⟨5, ![1, 32, 4, 128, 128]⟩
abbrev S1x32x128x128 : Shape := ⟨4, ![1, 32, 128, 128]⟩
abbrev S32x4x128x128 : Shape := ⟨4, ![32, 4, 128, 128]⟩
abbrev S32x128x128 : Shape := ⟨3, ![32, 128, 128]⟩

abbrev nBuf : Space → Nat
  | .hbm => 30
  | .vmem => 4
  | .smem => 0
  | _ => 0

abbrev bufTy : (tb : Table) → Fin (tcTables nBuf tb) → BufTy
  | .hbm, ⟨0, _⟩ => ⟨S16x64x256x256, .f32⟩
  | .hbm, ⟨1, _⟩ => ⟨S128x128x4, .i32⟩
  | .hbm, ⟨2, _⟩ => ⟨S16x64x65536, .f32⟩
  | .hbm, ⟨3, _⟩ => ⟨S4x128x128, .i32⟩
  | .hbm, ⟨4, _⟩ => ⟨S65536, .i32⟩
  | .hbm, ⟨5, _⟩ => ⟨S_, .i32⟩
  | .hbm, ⟨6, _⟩ => ⟨S65536, .i32⟩
  | .hbm, ⟨7, _⟩ => ⟨S65536, .i1⟩
  | .hbm, ⟨8, _⟩ => ⟨S_, .i32⟩
  | .hbm, ⟨9, _⟩ => ⟨S65536, .i32⟩
  | .hbm, ⟨10, _⟩ => ⟨S65536, .i32⟩
  | .hbm, ⟨11, _⟩ => ⟨S65536, .i32⟩
  | .hbm, ⟨12, _⟩ => ⟨S65536x1, .i32⟩
  | .hbm, ⟨13, _⟩ => ⟨S1, .i32⟩
  | .hbm, ⟨14, _⟩ => ⟨S_, .i32⟩
  | .hbm, ⟨15, _⟩ => ⟨S65536x1, .i32⟩
  | .hbm, ⟨16, _⟩ => ⟨S65536x1, .i1⟩
  | .hbm, ⟨17, _⟩ => ⟨S1x1, .i32⟩
  | .hbm, ⟨18, _⟩ => ⟨S65536x1, .i32⟩
  | .hbm, ⟨19, _⟩ => ⟨S65536x1, .i1⟩
  | .hbm, ⟨20, _⟩ => ⟨S65536x1, .i1⟩
  | .hbm, ⟨21, _⟩ => ⟨S_, .i1⟩
  | .hbm, ⟨22, _⟩ => ⟨S65536, .i1⟩
  | .hbm, ⟨23, _⟩ => ⟨S16x64x65536, .f32⟩
  | .hbm, ⟨24, _⟩ => ⟨S16x64x65536, .i1⟩
  | .hbm, ⟨25, _⟩ => ⟨S_, .f32⟩
  | .hbm, ⟨26, _⟩ => ⟨S16x64x65536, .f32⟩
  | .hbm, ⟨27, _⟩ => ⟨S16x64x65536, .f32⟩
  | .hbm, ⟨28, _⟩ => ⟨S16x64x4x128x128, .f32⟩
  | .hbm, ⟨29, _⟩ => ⟨S16x64x128x128, .f32⟩
  | .local _ .vmem, ⟨0, _⟩ => ⟨S1x32x4x128x128, .f32⟩
  | .local _ .vmem, ⟨1, _⟩ => ⟨S1x32x4x128x128, .f32⟩
  | .local _ .vmem, ⟨2, _⟩ => ⟨S1x32x128x128, .f32⟩
  | .local _ .vmem, ⟨3, _⟩ => ⟨S1x32x128x128, .f32⟩
  | _, _ => ⟨S16x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![16, 2], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x4x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  shapeCasts_S16x64x256x256_S16x64x65536 : S16x64x256x256.ShapeCasts S16x64x65536
  transposes_S128x128x4_S4x128x128_2_0_1 : S128x128x4.Transposes [2, 0, 1] S4x128x128
  shapeCasts_S4x128x128_S65536 : S4x128x128.ShapeCasts S65536
  bcast_S_S65536 : S_.BroadcastsInDim S65536 (![] : Fin 0 → Fin S65536.rank)
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S1_S1x1_1 : S1.BroadcastsInDim S1x1 (![1] : Fin 1 → Fin S1x1.rank)
  bcast_S1x1_S65536x1_0_1 : S1x1.BroadcastsInDim S65536x1 (![0, 1] : Fin 2 → Fin S65536x1.rank)
  reducesTo_S65536x1_S65536_d1 : S65536x1.ReducesTo [1] S65536
  h_S_ : 0 < S_.numel
  bcast_S65536_S16x64x65536_2 : S65536.BroadcastsInDim S16x64x65536 (![2] : Fin 1 → Fin S16x64x65536.rank)
  bcast_S_S16x64x65536 : S_.BroadcastsInDim S16x64x65536 (![] : Fin 0 → Fin S16x64x65536.rank)
  shapeCasts_S16x64x65536_S16x64x4x128x128 : S16x64x65536.ShapeCasts S16x64x4x128x128
  inb_S1x32x4x128x128_S1x32x4x128x128_0_0_0_0_0 : ∀ a, (![0, 0, 0, 0, 0] : Fin 5 → Nat) a + S1x32x4x128x128.size a ≤ S1x32x4x128x128.size a
  h_S1x32x4x128x128 : 0 < S1x32x4x128x128.numel
  shapeCasts_S1x32x4x128x128_S32x4x128x128 : S1x32x4x128x128.ShapeCasts S32x4x128x128
  reduces_S32x4x128x128_S32x128x128 : S32x4x128x128.Reduces [1] S32x128x128
  inb_S1x32x128x128_S1x32x128x128_0_0_0_0 : ∀ a, (![0, 0, 0, 0] : Fin 4 → Nat) a + S1x32x128x128.size a ≤ S1x32x128x128.size a
  h_S1x32x128x128 : 0 < S1x32x128x128.numel
  shapeCasts_S1x32x128x128_S32x128x128 : S1x32x128x128.ShapeCasts S32x128x128
  shapeCasts_S32x128x128_S1x32x128x128 : S32x128x128.ShapeCasts S1x32x128x128
  gather_S16x64x65536_S65536x1_S16x64x65536_01_2_n_n_2_1_16641_wf : GatherDims.WF S16x64x65536 S65536x1 S16x64x65536 [0, 1] [2] [] [2] [] 1 ![16, 64, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x4x128x128.size a ≤ S16x64x4x128x128.size a
  hwx0_0 : ∀ i : grid0.Coords, EltTy.bits .f32 = 32 ∨ (Rect.block (s := S16x64x4x128x128) S1x32x4x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x128x128.size a ≤ S16x64x128x128.size a
  hwx0_1 : ∀ i : grid0.Coords, EltTy.bits .f32 = 32 ∨ (Rect.block (s := S16x64x128x128) S1x32x128x128.size (cc0_transform_1 i) (hinb0_1 i)).WholeWords (EltTy.packing .f32)

variable [Facts₀]

def gather_S16x64x65536_S65536x1_S16x64x65536_01_2_n_n_2_1_16641 : GatherDims S16x64x65536 S65536x1 S16x64x65536 where
  offsetDims := [0, 1]
  collapsedSliceDims := [2]
  operandBatchingDims := []
  startIndicesBatchingDims := []
  startIndexMap := [2]
  indexVectorDim := 1
  sliceSizes := ![16, 64, 1]
  wf := gather_S16x64x65536_S65536x1_S16x64x65536_01_2_n_n_2_1_16641_wf

abbrev win0_0 : Pipeline.Window sig grid0 :=
  Pipeline.Window.ofSpec (Memref.whole main_v4) S1x32x4x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x32x128x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x64x256x256 : Shape := ⟨4, ![16, 64, 256, 256]⟩
abbrev S128x128x4 : Shape := ⟨3, ![128, 128, 4]⟩
abbrev S16x64x65536 : Shape := ⟨3, ![16, 64, 65536]⟩
abbrev S65536 : Shape := ⟨1, ![65536]⟩
abbrev S_ : Shape := ⟨0, ![]⟩
abbrev S65536x1 : Shape := ⟨2, ![65536, 1]⟩
abbrev S1 : Shape := ⟨1, ![1]⟩
abbrev S1x1 : Shape := ⟨2, ![1, 1]⟩
abbrev S16x64x128x128x4 : Shape := ⟨5, ![16, 64, 128, 128, 4]⟩
abbrev S16x64x128x128 : Shape := ⟨4, ![16, 64, 128, 128]⟩

abbrev nBuf : Space → Nat
  | .hbm => 30
  | .vmem => 0
  | .smem => 0
  | _ => 0

abbrev bufTy : (tb : Table) → Fin (tcTables nBuf tb) → BufTy
  | .hbm, ⟨0, _⟩ => ⟨S16x64x256x256, .f32⟩
  | .hbm, ⟨1, _⟩ => ⟨S128x128x4, .i32⟩
  | .hbm, ⟨2, _⟩ => ⟨S16x64x65536, .f32⟩
  | .hbm, ⟨3, _⟩ => ⟨S65536, .i32⟩
  | .hbm, ⟨4, _⟩ => ⟨S_, .i32⟩
  | .hbm, ⟨5, _⟩ => ⟨S65536, .i32⟩
  | .hbm, ⟨6, _⟩ => ⟨S65536, .i1⟩
  | .hbm, ⟨7, _⟩ => ⟨S_, .i32⟩
  | .hbm, ⟨8, _⟩ => ⟨S65536, .i32⟩
  | .hbm, ⟨9, _⟩ => ⟨S65536, .i32⟩
  | .hbm, ⟨10, _⟩ => ⟨S65536, .i32⟩
  | .hbm, ⟨11, _⟩ => ⟨S65536x1, .i32⟩
  | .hbm, ⟨12, _⟩ => ⟨S1, .i32⟩
  | .hbm, ⟨13, _⟩ => ⟨S_, .i32⟩
  | .hbm, ⟨14, _⟩ => ⟨S65536x1, .i32⟩
  | .hbm, ⟨15, _⟩ => ⟨S65536x1, .i1⟩
  | .hbm, ⟨16, _⟩ => ⟨S1x1, .i32⟩
  | .hbm, ⟨17, _⟩ => ⟨S65536x1, .i32⟩
  | .hbm, ⟨18, _⟩ => ⟨S65536x1, .i1⟩
  | .hbm, ⟨19, _⟩ => ⟨S65536x1, .i1⟩
  | .hbm, ⟨20, _⟩ => ⟨S_, .i1⟩
  | .hbm, ⟨21, _⟩ => ⟨S65536, .i1⟩
  | .hbm, ⟨22, _⟩ => ⟨S16x64x65536, .f32⟩
  | .hbm, ⟨23, _⟩ => ⟨S16x64x65536, .i1⟩
  | .hbm, ⟨24, _⟩ => ⟨S_, .f32⟩
  | .hbm, ⟨25, _⟩ => ⟨S16x64x65536, .f32⟩
  | .hbm, ⟨26, _⟩ => ⟨S16x64x65536, .f32⟩
  | .hbm, ⟨27, _⟩ => ⟨S16x64x128x128x4, .f32⟩
  | .hbm, ⟨28, _⟩ => ⟨S_, .f32⟩
  | .hbm, ⟨29, _⟩ => ⟨S16x64x128x128, .f32⟩
  | _, _ => ⟨S16x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v2 : Ref sig .tc := ⟨.hbm, 26, rfl⟩
abbrev main_v3 : Ref sig .tc := ⟨.hbm, 27, rfl⟩
abbrev main_cst : Ref sig .tc := ⟨.hbm, 28, rfl⟩
abbrev main_v4 : Ref sig .tc := ⟨.hbm, 29, rfl⟩

abbrev nD : Nat := 1
abbrev τ : Topo := Topo.v7x

variable {F : FTy → Type} [FloatOps F]

class Facts₀ : Prop where
  shapeCasts_S16x64x256x256_S16x64x65536 : S16x64x256x256.ShapeCasts S16x64x65536
  shapeCasts_S128x128x4_S65536 : S128x128x4.ShapeCasts S65536
  bcast_S_S65536 : S_.BroadcastsInDim S65536 (![] : Fin 0 → Fin S65536.rank)
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S1_S1x1_1 : S1.BroadcastsInDim S1x1 (![1] : Fin 1 → Fin S1x1.rank)
  bcast_S1x1_S65536x1_0_1 : S1x1.BroadcastsInDim S65536x1 (![0, 1] : Fin 2 → Fin S65536x1.rank)
  reducesTo_S65536x1_S65536_d1 : S65536x1.ReducesTo [1] S65536
  h_S_ : 0 < S_.numel
  bcast_S65536_S16x64x65536_2 : S65536.BroadcastsInDim S16x64x65536 (![2] : Fin 1 → Fin S16x64x65536.rank)
  bcast_S_S16x64x65536 : S_.BroadcastsInDim S16x64x65536 (![] : Fin 0 → Fin S16x64x65536.rank)
  shapeCasts_S16x64x65536_S16x64x128x128x4 : S16x64x65536.ShapeCasts S16x64x128x128x4
  reducesTo_S16x64x128x128x4_S16x64x128x128_d4 : S16x64x128x128x4.ReducesTo [4] S16x64x128x128
  gather_S16x64x65536_S65536x1_S16x64x65536_01_2_n_n_2_1_16641_wf : GatherDims.WF S16x64x65536 S65536x1 S16x64x65536 [0, 1] [2] [] [2] [] 1 ![16, 64, 1]

variable [Facts₀]

def gather_S16x64x65536_S65536x1_S16x64x65536_01_2_n_n_2_1_16641 : GatherDims S16x64x65536 S65536x1 S16x64x65536 where
  offsetDims := [0, 1]
  collapsedSliceDims := [2]
  operandBatchingDims := []
  startIndicesBatchingDims := []
  startIndexMap := [2]
  indexVectorDim := 1
  sliceSizes := ![16, 64, 1]
  wf := gather_S16x64x65536_S65536x1_S16x64x65536_01_2_n_n_2_1_16641_wf

class Facts : Prop extends Facts₀ where

variable [Facts]
-- ==== Proof.LibTakeLastAxis.lean ====
/-
  Reading `jnp.take(x, q, axis=2)` of a rank-3 array at an index.

  `jnp.take` of `x : [B, C, N]` at a vector of positions `q : [M]` along the last axis lowers to a
  `stablehlo.gather` whose start indices are the positions kept as an `[M, 1]` column: the result's two leading
  axes are offset axes copied from the operand, the operand's last axis is collapsed and is the one the start index
  addresses, and the index vector lies on axis 1 of the column.  Result element `(b, c, p)` is therefore the operand
  at `(b, c, k)`, where `k` is the start index `q[p]` read as a signed integer and clamped into `[0, N - 1]`
  (StableHLO clamps every start index).  Two companions for the mask that jnp's "fill" mode builds beside the
  gather: a vector laid along the last axis of a rank-3 array reads, at `(b, c, p)`, the vector at `p`; and a
  reduction of an `[M, 1]` column over its unit axis reads, at `p`, the body applied to the initial value and
  the column's one entry in row `p`.  Any extents, any element type.
-/
import Idealize.ShloMosaic.Lib.ValueIdx
import Idealize.ShloMosaic.PureOps.Reduce

noncomputable section

namespace TakeLastAxis

open Idealize.ShloMosaic Idealize.ShloMosaic.ValueIdx

variable {α : Type}

/-- The dimension numbers of a take along the last axis of `[B, C, N]` at an `[M, 1]` column of positions; their
    conditions `wf` are decided on a program's literal shapes. -/
abbrev takeLastDims (B C N M : Nat)
    (wf : GatherDims.WF ⟨3, ![B, C, N]⟩ ⟨2, ![M, 1]⟩ ⟨3, ![B, C, M]⟩ [0, 1] [2] [] [2] [] 1 ![B, C, 1]) :
    GatherDims ⟨3, ![B, C, N]⟩ ⟨2, ![M, 1]⟩ ⟨3, ![B, C, M]⟩ where
  offsetDims := [0, 1]
  collapsedSliceDims := [2]
  operandBatchingDims := []
  startIndicesBatchingDims := []
  startIndexMap := [2]
  indexVectorDim := 1
  sliceSizes := ![B, C, 1]
  wf := wf

/-- A start index read as a signed integer and clamped into `[0, N - 1]`. -/
def clampPos {w : Nat} (N : Nat) (hN : 0 < N) (v : BitVec w) : Fin N := ⟨min v.toInt.toNat (N - 1), by omega⟩

section Coordinates

variable {B C N M w : Nat}
  (wf : GatherDims.WF ⟨3, ![B, C, N]⟩ ⟨2, ![M, 1]⟩ ⟨3, ![B, C, M]⟩ [0, 1] [2] [] [2] [] 1 ![B, C, 1])
  (q : IVec ⟨2, ![M, 1]⟩ w) (b : Fin B) (c : Fin C) (p : Fin M)

/-- A leading axis is not start-indexed; it is the first kept axis of the operand, read off the result's first
    offset axis. -/
theorem operand_axis0 :
    (takeLastDims B C N M wf).start (ix3 b c p) q 0 + (takeLastDims B C N M wf).batchCoord (ix3 b c p) 0
      + (takeLastDims B C N M wf).offCoord (ix3 b c p) 0 = b.val := by
  rw [GatherDims.batchCoord_eq_zero _ _ _ List.not_mem_nil, Nat.add_zero]
  unfold GatherDims.start GatherDims.offCoord
  rw [dif_neg (show (0 : Fin 3) ∉ [(2 : Fin 3)] by decide),
    dif_pos ((GatherDims.mem_sKept _ _).mpr ⟨show (0 : Fin 3) ∉ [(2 : Fin 3)] by decide, List.not_mem_nil⟩), Nat.zero_add]
  rfl

/-- Likewise the second axis, off the second offset axis. -/
theorem operand_axis1 :
    (takeLastDims B C N M wf).start (ix3 b c p) q 1 + (takeLastDims B C N M wf).batchCoord (ix3 b c p) 1
      + (takeLastDims B C N M wf).offCoord (ix3 b c p) 1 = c.val := by
  rw [GatherDims.batchCoord_eq_zero _ _ _ List.not_mem_nil, Nat.add_zero]
  unfold GatherDims.start GatherDims.offCoord
  rw [dif_neg (show (1 : Fin 3) ∉ [(2 : Fin 3)] by decide),
    dif_pos ((GatherDims.mem_sKept _ _).mpr ⟨show (1 : Fin 3) ∉ [(2 : Fin 3)] by decide, List.not_mem_nil⟩), Nat.zero_add]
  rfl

/-- The last axis is collapsed (no offset) and start-indexed by the column's entry in the result's batch row. -/
theorem operand_axis2 :
    (takeLastDims B C N M wf).start (ix3 b c p) q 2 + (takeLastDims B C N M wf).batchCoord (ix3 b c p) 2
      + (takeLastDims B C N M wf).offCoord (ix3 b c p) 2 = min (q (ix2 p (0 : Fin 1))).toInt.toNat (N - 1) := by
  rw [GatherDims.batchCoord_eq_zero _ _ _ List.not_mem_nil, Nat.add_zero,
    GatherDims.offCoord_eq_zero _ _ _ (fun hk => ((GatherDims.mem_sKept _ _).mp hk).1 (List.mem_singleton.mpr rfl)), Nat.add_zero]
  unfold GatherDims.start
  rw [dif_pos (show (2 : Fin 3) ∈ [(2 : Fin 3)] from List.mem_singleton.mpr rfl)]
  have hsi : (takeLastDims B C N M wf).siIdx (ix3 b c p)
      ⟨List.idxOf (2 : Fin 3) (takeLastDims B C N M wf).startIndexMap,
        List.idxOf_lt_length_iff.2 (List.mem_singleton.mpr rfl)⟩ = ix2 p (0 : Fin 1) := by
    funext e; refine Fin.ext ?_
    match e with
    | ⟨0, _⟩ => rfl
    | ⟨1, _⟩ => rfl
  rw [hsi]
  rfl

end Coordinates

/-- The take read at `(b, c, p)`: the operand at `(b, c, k)` with `k` the position `q[p]` read signed and
    clamped into `[0, N - 1]`. -/
theorem gather_takeLast_apply {B C N M w : Nat} (hN : 0 < N)
    (wf : GatherDims.WF ⟨3, ![B, C, N]⟩ ⟨2, ![M, 1]⟩ ⟨3, ![B, C, M]⟩ [0, 1] [2] [] [2] [] 1 ![B, C, 1])
    (x : (⟨3, ![B, C, N]⟩ : Shape).Idx → α) (q : IVec ⟨2, ![M, 1]⟩ w) (b : Fin B) (c : Fin C) (p : Fin M) :
    Host.gather (takeLastDims B C N M wf) x q (ix3 b c p) = x (ix3 b c (clampPos N hN (q (ix2 p (0 : Fin 1))))) := by
  unfold Host.gather
  congr 1
  funext a
  refine Fin.ext ?_
  match a with
  | ⟨0, _⟩ => exact operand_axis0 wf q b c p
  | ⟨1, _⟩ => exact operand_axis1 wf q b c p
  | ⟨2, _⟩ => exact operand_axis2 wf q b c p

/-- A vector laid along the LAST axis of a rank-3 array (constant over the two leading axes) reads, at `(b, c, p)`,
    the vector at `p`. -/
theorem bcast_last3 {B C M : Nat} (h : (⟨1, ![M]⟩ : Shape).BroadcastsInDim ⟨3, ![B, C, M]⟩ ![2])
    (v : (⟨1, ![M]⟩ : Shape).Idx → α) (b : Fin B) (c : Fin C) (p : Fin M) :
    broadcastInDim ⟨3, ![B, C, M]⟩ ![2] h v (ix3 b c p) = v (ix1 p) := by
  simp only [broadcastInDim]
  congr 1
  funext a
  have ha : a = 0 := Subsingleton.elim _ _
  subst ha
  apply Fin.ext
  have hp := p.isLt
  split
  · next h1 => change M = 1 at h1; show (0 : Nat) = p.val; omega
  · rfl

/-- A vector kept as an `[M, 1]` column reads, at `(p, 0)`, the vector at `p`. -/
theorem bcast_column {M : Nat} (h : (⟨1, ![M]⟩ : Shape).BroadcastsInDim ⟨2, ![M, 1]⟩ ![0])
    (v : (⟨1, ![M]⟩ : Shape).Idx → α) (p : Fin M) :
    broadcastInDim ⟨2, ![M, 1]⟩ ![0] h v (ix2 p (0 : Fin 1)) = v (ix1 p) := by
  simp only [broadcastInDim]
  congr 1
  funext a
  have ha : a = 0 := Subsingleton.elim _ _
  subst ha
  apply Fin.ext
  have hp := p.isLt
  split
  · next h1 => change M = 1 at h1; show (0 : Nat) = p.val; omega
  · rfl

/-- A reduction of an `[M, 1]` column over its unit axis, with a commutative and associative body: at `p` the body
    applied to the column's entry in row `p` and the initial value. -/
theorem reduce_unitAxis {M : Nat} (f : α → α → α) [Std.Commutative f] [Std.Associative f]
    (x : (⟨2, ![M, 1]⟩ : Shape).Idx → α) (init : (⟨0, ![]⟩ : Shape).Idx → α)
    (h' : (⟨2, ![M, 1]⟩ : Shape).ReducesTo [1] ⟨1, ![M]⟩) (h : (⟨2, ![M, 1]⟩ : Shape).Reduces [1] ⟨1, ![M]⟩)
    (hu : 0 < (⟨0, ![]⟩ : Shape).numel) (p : Fin M) :
    Host.reduce f x init h' hu (ix1 p) = f (x (ix2 p (0 : Fin 1))) (init (Shape.Idx.first hu)) := by
  rw [Host.reduce_eq_fold_single f x init h' h hu (ix1 p)]
  -- a fold over the one coordinate of a unit axis is one application of the body
  have one : ∀ (n : Nat) (hn : n = 1) (v : α) (g : Fin n → α),
      (Finset.univ : Finset (Fin n)).fold f v g = f (g ⟨0, by omega⟩) v := by
    intro n hn v g; subst hn; rw [Finset.univ_unique, Finset.fold_singleton]; rfl
  refine (one ((⟨2, ![M, 1]⟩ : Shape).size 1) rfl _ _).trans ?_
  congr 1
  show x (h.lift (ix1 p) ⟨0, _⟩) = _
  congr 1
  funext e; refine Fin.ext ?_
  rw [h.lift_val]
  unfold Shape.Reduces.liftVal
  match e with
  | ⟨0, _⟩ => rfl
  | ⟨1, _⟩ => rfl

end TakeLastAxis

end
-- ==== Proof.TakeChain.lean ====
/-
  jnp's take in "fill" mode along the last axis of the flattened image planes, as one function, and what it
  reads at one index.

  Both programs flatten the image to planes `[16, 64, 65536]`, lay the index table out as a vector of 65536
  positions (each in its own order) and apply the same chain of host operations to the pair: a negative position
  is shifted up by the axis length 65536; the shifted positions, kept as a column, address the planes' last axis
  (the gather clamps each into `[0, 65535]`); a position outside `[0, 65535]` after the shift is masked, and a
  masked element reads the fill value (the word `0x7FC00000`) instead of the gathered one.  `takeFill` is that
  chain.  What matters for the comparison is that it is LOCAL in the positions: its element `(b, c, p)` depends
  on the position vector only through the one word `q[p]` (`takeFill_apply`), so two layouts of the same table
  give the same elements in two orders.
-/
import Idealize.ShloMosaic.Lib.ValueIdx
import proofs.«422887_j22290880266905_3_alg».proof.Proof.LibTakeLastAxis

noncomputable section

namespace Cert.Hand.Take

open Idealize.ShloMosaic Idealize.ShloMosaic.ValueIdx TakeLastAxis

/-! ## Shapes and their relations -/

abbrev SPlane : Shape := ⟨3, ![16, 64, 65536]⟩
abbrev SPos : Shape := ⟨1, ![65536]⟩
abbrev SCol : Shape := ⟨2, ![65536, 1]⟩
abbrev S0 : Shape := ⟨0, ![]⟩
abbrev SOne : Shape := ⟨1, ![1]⟩
abbrev SOneOne : Shape := ⟨2, ![1, 1]⟩

theorem b0Pos : S0.BroadcastsInDim SPos (![] : Fin 0 → Fin SPos.rank) := by decide
theorem bPosCol : SPos.BroadcastsInDim SCol (![0] : Fin 1 → Fin SCol.rank) := by decide
theorem b0Col : S0.BroadcastsInDim SCol (![] : Fin 0 → Fin SCol.rank) := by decide
theorem bOne : SOne.BroadcastsInDim SOneOne (![1] : Fin 1 → Fin SOneOne.rank) := by decide
theorem bOneCol : SOneOne.BroadcastsInDim SCol (![0, 1] : Fin 2 → Fin SCol.rank) := by decide
theorem redCol : SCol.ReducesTo [1] SPos := by decide
theorem redCol' : SCol.Reduces [1] SPos := by decide
theorem pos0 : 0 < S0.numel := by decide
theorem bPosPlane : SPos.BroadcastsInDim SPlane (![2] : Fin 1 → Fin SPlane.rank) := by decide
theorem b0Plane : S0.BroadcastsInDim SPlane (![] : Fin 0 → Fin SPlane.rank) := by decide
theorem takeWf : GatherDims.WF SPlane SCol SPlane [0, 1] [2] [] [2] [] 1 ![16, 64, 1] := by decide

/-! ## The chain -/

/-- The positions with each negative one shifted up by the axis length. -/
def shifted (q : IVec SPos 32) : IVec SPos 32 :=
  select (cmpi .slt q (broadcastInDim SPos ![] b0Pos (constantI S0 32 0#32)))
    (addi q (broadcastInDim SPos ![] b0Pos (constantI S0 32 65536#32))) q

/-- The shifted positions as the column of start indices. -/
def column (q : IVec SPos 32) : IVec SCol 32 := broadcastInDim SCol ![0] bPosCol (shifted q)

/-- The mask: a shifted position is inside `[0, 65535]`. -/
def inRange (q : IVec SPos 32) : IVec SPos 1 :=
  Host.reduce IntOp.andi
    (andi (cmpi .sge (column q) (broadcastInDim SCol ![] b0Col (constantI S0 32 0#32)))
      (cmpi .sle (column q) (broadcastInDim SCol ![0, 1] bOneCol (broadcastInDim SOneOne ![1] bOne (constantI SOne 32 65535#32)))))
    (constantI S0 1 1#1) redCol pos0

variable {F : FTy → Type} [FloatOps F]

/-- The take in "fill" mode: the gathered planes where the mask holds, the fill value elsewhere. -/
def takeFill (xf : FVec F SPlane .f32) (q : IVec SPos 32) : FVec F SPlane .f32 :=
  select (broadcastInDim SPlane ![2] bPosPlane (inRange q))
    (Host.gather (takeLastDims 16 64 65536 65536 takeWf) xf (column q))
    (broadcastInDim SPlane ![] b0Plane (constant S0 .f32 0x7FC00000#32))

/-! ## One element -/

/-- One position shifted. -/
def shiftWord (w : BitVec 32) : BitVec 32 := Scalar.select (IntOp.cmpi .slt w 0#32) (IntOp.addi w 65536#32) w

/-- One shifted position's mask bit. -/
def wordInRange (v : BitVec 32) : BitVec 1 :=
  IntOp.andi (IntOp.andi (IntOp.cmpi .sge v 0#32) (IntOp.cmpi .sle v 65535#32)) 1#1

/-- What the take reads in plane `(b, c)` for the position word `w`: the plane at the shifted position read signed
    and clamped, or the fill value when the shifted position is out of range. -/
def takeAt (xf : FVec F SPlane .f32) (b : Fin 16) (c : Fin 64) (w : BitVec 32) : F .f32 :=
  Scalar.select (wordInRange (shiftWord w))
    (xf (ix3 b c (clampPos 65536 (by decide) (shiftWord w))))
    (FloatOps.ofBits .f32 0x7FC00000#32)

theorem column_apply (q : IVec SPos 32) (p : Fin 65536) : column q (ix2 p (0 : Fin 1)) = shiftWord (q (ix1 p)) := by
  unfold column
  rw [bcast_column]
  rfl

theorem inRange_apply (q : IVec SPos 32) (p : Fin 65536) : inRange q (ix1 p) = wordInRange (shiftWord (q (ix1 p))) := by
  unfold inRange
  rw [reduce_unitAxis IntOp.andi _ _ redCol redCol' pos0 p]
  show IntOp.andi (IntOp.andi (IntOp.cmpi .sge (column q (ix2 p (0 : Fin 1))) 0#32)
    (IntOp.cmpi .sle (column q (ix2 p (0 : Fin 1))) 65535#32)) 1#1 = _
  rw [column_apply]
  rfl

/-- LOCALITY: element `(b, c, p)` of the take depends on the positions only through the word `q[p]`. -/
theorem takeFill_apply (xf : FVec F SPlane .f32) (q : IVec SPos 32) (b : Fin 16) (c : Fin 64) (p : Fin 65536) :
    takeFill xf q (ix3 b c p) = takeAt xf b c (q (ix1 p)) := by
  unfold takeFill takeAt
  rw [select_apply, bcast_last3, gather_takeLast_apply (by decide), column_apply, inRange_apply]
  rfl

end Cert.Hand.Take

/-! ## The pooled result -/

namespace Cert.Hand.Pool

open Idealize.ShloMosaic Idealize.ShloMosaic.ValueIdx Cert.Hand.Take

abbrev SImage : Shape := ⟨4, ![16, 64, 256, 256]⟩
abbrev STable : Shape := ⟨3, ![128, 128, 4]⟩
abbrev SOut : Shape := ⟨4, ![16, 64, 128, 128]⟩

theorem flatten : SImage.ShapeCasts SPlane := by decide

/-- THE SPECIFICATION of one result element, at the extended reals: the maximum, from −∞, over the window's four
    taps of the take of plane `(b, c)` at the tap's position word. -/
def pooled (xf : FVec Ideal SPlane .f32) (idx : IVec STable 32) (b : Fin 16) (c : Fin 64) (i j : Fin 128) : EReal :=
  (Finset.univ : Finset (Fin 4)).fold max (Ideal.ofBits .f32 0xFF800000#32) (fun t => takeAt xf b c (idx (ix3 i j t)))

/-- The whole result array as one function of the image and the index table: both programs end at it. -/
def result (x : FVec Ideal SImage .f32) (idx : IVec STable 32) : FVec Ideal SOut .f32 :=
  fun y => pooled (shapeCast SPlane x flatten) idx (y 0) (y 1) (y 2) (y 3)

end Cert.Hand.Pool

end
-- ==== Proof.KernelStage.lean ====
/-
  The array the kernel's pallas_call stages.

  Before its one pallas_call the kernel's @main flattens the planes, lays the index table out TAP-MAJOR (the
  table transposed to `[4, 128, 128]`, then flattened: element `(i, j, t)` at position `16384 t + 128 i + j`),
  takes the planes at those positions and regroups the result as `[16, 64, 4, 128, 128]`.  `gathered` is that
  array as one term of the two arguments; the region finds it in the input window's array (`V_gathered`), and by
  the take's locality its element `(b, c, t, i, j)` is the take of plane `(b, c)` at the position word
  `idx[i, j, t]` (`gathered_apply`).
-/
import proofs.«422887_j22290880266905_3_alg».proof.Proof.Gen.KernelIdeal.Frame
import proofs.«422887_j22290880266905_3_alg».proof.Proof.TakeChain
import Idealize.ShloMosaic.Lib.Pipeline.Value
import Idealize.ShloMosaic.Lib.StableHlo.Run
import Idealize.ShloMosaic.PureOps.Ideal.Laws

noncomputable section

namespace Cert.KernelIdeal.KValue

open Cert.KernelIdeal Cert.KernelIdeal.Gen Idealize.ShloMosaic Idealize.ShloMosaic.TcCoe Idealize.SL.Sem
open Idealize.ShloMosaic.Pipeline (Dat)
open Idealize.ShloMosaic.ValueIdx Cert.Hand.Take Cert.Hand.Pool
open Idealize.ShloMosaic.StableHlo (after_cons after_nil)

/-! ## The staged array -/

section AnyValues
variable {F : FTy → Type} [FloatOps F]

/-- The array the input window stages, as one term of the two arguments. -/
def gathered (x : FVec F S16x64x256x256 .f32) (idx : IVec S128x128x4 32) : FVec F S16x64x4x128x128 .f32 :=
  shapeCast S16x64x4x128x128
    (takeFill (shapeCast S16x64x65536 x shapeCasts_S16x64x256x256_S16x64x65536)
      (shapeCast S65536 (transpose S4x128x128 [2, 0, 1] idx transposes_S128x128x4_S4x128x128_2_0_1) shapeCasts_S4x128x128_S65536))
    shapeCasts_S16x64x65536_S16x64x4x128x128

variable (m : (ℓ : Loc nD τ sig) → Buf (Elt F) ℓ)

attribute [local irreducible] Host.reduce Host.gather in
set_option maxHeartbeats 1000000 in
/-- The region finds the staged array at `gathered` of the arguments as launched. -/
theorem V_gathered (c : Dev nD) :
    (V m c main_v4 : S16x64x4x128x128.Idx → Elt F .f32)
      = gathered (m ((c : Thread nD τ).loc main_arg0)) (m ((c : Thread nD τ).loc main_arg1)) := by
  dsimp only [Gen.V]
  simp only [Gen.hostOps0, Gen.hostOps0_1, Gen.hostOps0_2, List.flatten_cons, List.flatten_nil, List.append_nil,
    List.cons_append, List.nil_append]
  after_results_simp
  simp only [StableHlo.TRef.ofBuf, StableHlo.TRef.toBuf, cast_eq]
  unfold gathered takeFill inRange column shifted
  rfl

/-- The same, with the array named as the input window's. -/
theorem V_window0 (c : Dev nD) :
    (V m c (Pipeline.arrRef spec0 (0 : Fin cfg0.W)) : S16x64x4x128x128.Idx → Elt F .f32)
      = gathered (m ((c : Thread nD τ).loc main_arg0)) (m ((c : Thread nD τ).loc main_arg1)) :=
  V_gathered m c

/-- Element `(b, c, t, i, j)` of the staged array: the take of plane `(b, c)` at the position word `idx[i, j, t]`. -/
theorem gathered_apply (x : FVec F S16x64x256x256 .f32) (idx : IVec S128x128x4 32) (b : Fin 16) (c : Fin 64) (t : Fin 4)
    (i j : Fin 128) :
    gathered x idx (ix5 b c t i j)
      = takeAt (shapeCast S16x64x65536 x shapeCasts_S16x64x256x256_S16x64x65536) b c (idx (ix3 i j t)) := by
  have hb := b.isLt; have hc := c.isLt; have hi := i.isLt; have hj := j.isLt; have ht := t.isLt
  unfold gathered
  rw [shapeCast_apply _ shapeCasts_S16x64x65536_S16x64x4x128x128 _
    (ix3 b c (⟨t.val * 16384 + i.val * 128 + j.val, by omega⟩ : Fin 65536)) (by
      rw [Shape.rowMajor_val_three, Shape.rowMajor_val_five]
      show (b.val * 64 + c.val) * 65536 + (t.val * 16384 + i.val * 128 + j.val)
        = (((b.val * 64 + c.val) * 4 + t.val) * 128 + i.val) * 128 + j.val
      omega)]
  rw [takeFill_apply]
  refine congrArg (takeAt _ b c) ?_
  refine (shapeCast_apply _ shapeCasts_S4x128x128_S65536 _ (ix3 t i j) (by
    rw [Shape.rowMajor_val_three, Shape.rowMajor_val_one]
    show (t.val * 128 + i.val) * 128 + j.val = t.val * 16384 + i.val * 128 + j.val
    omega)).trans ?_
  exact transpose_apply _ idx transposes_S128x128x4_S4x128x128_2_0_1 _ (ix3 i j t)
    (fun a => match a with | ⟨0, _⟩ => rfl | ⟨1, _⟩ => rfl | ⟨2, _⟩ => rfl)

end AnyValues

end Cert.KernelIdeal.KValue

end
-- ==== Proof.KernelBlock.lean ====
/-
  What the kernel's body leaves in one output block.

  The body loads the whole input block `[1, 32, 4, 128, 128]` (32 planes, all four taps), drops the unit axis,
  takes the maximum over the tap axis from −∞ and stores the result, with the unit axis back, over the whole output
  block `[1, 32, 128, 128]`.  At the extended reals the maximum over one axis is the fold of `max` over its four
  coordinates, so the block's element `(0, c', i, j)` is the maximum, from −∞, over `t` of the input block's
  element `(0, c', t, i, j)`.
-/
import proofs.«422887_j22290880266905_3_alg».proof.Proof.Gen.KernelIdeal.Frame
import proofs.«422887_j22290880266905_3_alg».proof.Proof.TakeChain
import Idealize.ShloMosaic.Lib.Pipeline.Value
import Idealize.ShloMosaic.Lib.StableHlo.Run
import Idealize.ShloMosaic.PureOps.Ideal.Laws

noncomputable section

namespace Cert.KernelIdeal.KValue

open Cert.KernelIdeal Cert.KernelIdeal.Gen Idealize.ShloMosaic Idealize.ShloMosaic.TcCoe Idealize.SL.Sem
open Idealize.ShloMosaic.Pipeline (Dat)
open Idealize.ShloMosaic.ValueIdx Cert.Hand.Take Cert.Hand.Pool
open Idealize.ShloMosaic.StableHlo (after_cons after_nil)

/-! ## One block -/

theorem zero4 : (![0, 0, 0, 0] : Fin 4 → Nat) = fun _ => 0 := funext fun a => by fin_cases a <;> rfl
theorem zero5 : (![0, 0, 0, 0, 0] : Fin 5 → Nat) = fun _ => 0 := funext fun a => by fin_cases a <;> rfl

/-- The block index over `(c', i, j)` with tap coordinate `t` inserted on the reduced axis. -/
theorem liftTap (c' : Fin 32) (i j : Fin 128) (t : Fin (S32x4x128x128.size 1)) :
    reduces_S32x4x128x128_S32x128x128.lift (ix3 c' i j) t = ix4 c' (⟨t.val, t.isLt⟩ : Fin 4) i j := by
  funext a; apply Fin.ext
  show reduces_S32x4x128x128_S32x128x128.liftVal (ix3 c' i j) t.val a = _
  unfold Shape.Reduces.liftVal
  match a with
  | ⟨0, _⟩ => rfl
  | ⟨1, _⟩ => rfl
  | ⟨2, _⟩ => rfl
  | ⟨3, _⟩ => rfl

/-- The maximum over the tap axis from −∞, at the extended reals: the fold of `max` over the four taps. -/
theorem tapMax_apply (Y : FVec Ideal S32x4x128x128 .f32) (c' : Fin 32) (i j : Fin 128) :
    multiReduction .maximumf [1] S32x128x128 Y 0xFF800000#32 reduces_S32x4x128x128_S32x128x128 (.inl rfl) rfl (ix3 c' i j)
      = (Finset.univ : Finset (Fin 4)).fold max (Ideal.ofBits .f32 0xFF800000#32) (fun t => Y (ix4 c' t i j)) := by
  refine (Ideal.multiReduction_maximumf_single Y 0xFF800000#32 reduces_S32x4x128x128_S32x128x128 (.inl rfl) rfl (ix3 c' i j)).trans ?_
  refine Finset.fold_congr (fun t _ => ?_)
  exact congrArg Y (liftTap c' i j t)

/-- What the body leaves in the output's buffer, from the input block `P`: at `(0, c', i, j)` the maximum, from −∞,
    over the four taps of `P[0, c', t, i, j]`. -/
theorem out_block_apply (P : Vec Ideal S1x32x4x128x128 .f32) (c' : Fin 32) (i j : Fin 128) :
    out0_1 P (ix4 (0 : Fin 1) c' i j)
      = (Finset.univ : Finset (Fin 4)).fold max (Ideal.ofBits .f32 0xFF800000#32) (fun t => P (ix5 (0 : Fin 1) c' t i j)) := by
  have hc := c'.isLt; have hi := i.isLt; have hj := j.isLt
  unfold out0_1
  rw [View.canon_unit_zero zero4, View.ld_unit_zero (S := S1x32x4x128x128) zero5]
  unfold k0_pay1
  dsimp only
  refine (shapeCast_apply _ shapeCasts_S32x128x128_S1x32x128x128 _ (ix3 c' i j) (by
    rw [Shape.rowMajor_val_three, Shape.rowMajor_val_four]
    show (c'.val * 128 + i.val) * 128 + j.val = ((0 * 32 + c'.val) * 128 + i.val) * 128 + j.val
    omega)).trans ?_
  refine (tapMax_apply (shapeCast S32x4x128x128 P shapeCasts_S1x32x4x128x128_S32x4x128x128) c' i j).trans ?_
  refine Finset.fold_congr (fun t _ => ?_)
  have ht := t.isLt
  exact shapeCast_apply _ shapeCasts_S1x32x4x128x128_S32x4x128x128 _ (ix5 (0 : Fin 1) c' t i j) (by
    rw [Shape.rowMajor_val_five, Shape.rowMajor_val_four]
    show (((0 * 32 + c'.val) * 4 + t.val) * 128 + i.val) * 128 + j.val = ((c'.val * 4 + t.val) * 128 + i.val) * 128 + j.val
    omega)

end Cert.KernelIdeal.KValue

end
-- ==== Proof.KernelValue.lean ====
/-
  What the kernel computes, index by index.

  Before its one pallas_call the kernel's @main flattens the planes, lays the index table out TAP-MAJOR (the
  table transposed to `[4, 128, 128]`, then flattened: element `(i, j, t)` at position `16384 t + 128 i + j`),
  takes the planes at those positions and regroups the result as `[16, 64, 4, 128, 128]`: the array the region's
  input window stages (`gathered`).  The region's grid is `16 × 2`; at point `(g, h)` the body loads the block of
  planes `(g, 32 h … 32 h + 31)`, all four taps, and stores the maximum over the tap axis from −∞ into the same
  planes of the output.  So after the run output element `(b, c, i, j)` is the maximum, from −∞, over the four taps
  of `gathered[b, c, t, i, j]`, which by the take's locality is the take of plane `(b, c)` at the position word
  `idx[i, j, t]`: `Cert.Hand.Pool.result`, the same function the reference computes.
-/
import proofs.«422887_j22290880266905_3_alg».proof.Proof.Gen.KernelIdeal.Frame
import proofs.«422887_j22290880266905_3_alg».proof.Proof.TakeChain
import Idealize.ShloMosaic.Lib.Pipeline.Value
import Idealize.ShloMosaic.Lib.StableHlo.Run
import Idealize.ShloMosaic.PureOps.Ideal.Laws
import proofs.«422887_j22290880266905_3_alg».proof.Proof.KernelStage
import proofs.«422887_j22290880266905_3_alg».proof.Proof.KernelBlock

noncomputable section

namespace Cert.KernelIdeal.KValue

open Cert.KernelIdeal Cert.KernelIdeal.Gen Idealize.ShloMosaic Idealize.ShloMosaic.TcCoe Idealize.SL.Sem
open Idealize.ShloMosaic.Pipeline (Dat)
open Idealize.ShloMosaic.ValueIdx Cert.Hand.Take Cert.Hand.Pool
open Idealize.ShloMosaic.StableHlo (after_cons after_nil)

/-! ## From blocks to the array -/

/-- The maximum over the taps, from −∞, of a `[16, 64, 4, 128, 128]` array at plane `(b, c)`, pixel `(i, j)`. -/
def poolAt (A : FVec Ideal S16x64x4x128x128 .f32) (b : Fin 16) (c : Fin 64) (i j : Fin 128) : EReal :=
  (Finset.univ : Finset (Fin 4)).fold max (Ideal.ofBits .f32 0xFF800000#32) (fun t => A (ix5 b c t i j))

/-- The whole output as a function of the staged array. -/
def poolOf (A : FVec Ideal S16x64x4x128x128 .f32) : FVec Ideal S16x64x128x128 .f32 :=
  fun y => poolAt A (y 0) (y 1) (y 2) (y 3)

/-- The two index maps over the 32 grid points: the input's block moves with the output's on the two plane axes and
    sits at block 0 of the tap axis and of the two pixel axes, as the output's does of its two pixel axes. -/
theorem idx_facts : ∀ t : Fin cfg0.N,
    win0_0.index t (0 : Fin 5) = win0_1.index t (0 : Fin 4) ∧ win0_0.index t (1 : Fin 5) = win0_1.index t (1 : Fin 4)
    ∧ win0_0.index t (2 : Fin 5) = 0 ∧ win0_0.index t (3 : Fin 5) = 0 ∧ win0_0.index t (4 : Fin 5) = 0
    ∧ win0_1.index t (2 : Fin 4) = 0 ∧ win0_1.index t (3 : Fin 4) = 0
    ∧ win0_1.index t (0 : Fin 4) ≤ 15 ∧ win0_1.index t (1 : Fin 4) ≤ 1 :=
  (by decide +kernel : ∀ t : Fin grid0.N, _)

/-- Every block of planes is some point's. -/
theorem idx_onto : ∀ (g : Fin 16) (h : Fin 2), ∃ t : Fin cfg0.N, win0_1.index t = ![g.val, h.val, 0, 0] :=
  (by decide +kernel : ∀ (g : Fin 16) (h : Fin 2), ∃ t : Fin grid0.N, win0_1.index t = ![g.val, h.val, 0, 0])

/-- For ANY staged array `A`: what the body leaves from `A`'s block at point `t`, cut to the output's block, is
    block `t` of `poolOf A`. -/
theorem block_of_pool (A : FVec Ideal S16x64x4x128x128 .f32) (t : Fin cfg0.N) :
    (cfg0.win 1).cut (grid0.coords t) (out0_1 (((cfg0.win 0).blk t).view.read (Elt Ideal) A))
      = ((cfg0.win 1).blk t).view.read (Elt Ideal) (poolOf A) := by
  obtain ⟨e0, e1, e2, e3, e4, e5, e6, e7, e8⟩ := idx_facts t
  funext y
  obtain ⟨y0, c', i, j, rfl⟩ : ∃ (y0 : Fin 1) (c' : Fin 32) (i j : Fin 128), y = ix4 y0 c' i j :=
    ⟨y 0, y 1, y 2, y 3, eq_ix4 y⟩
  obtain rfl : y0 = 0 := Subsingleton.elim _ _
  have hc := c'.isLt; have hi := i.isLt; have hj := j.isLt
  -- the planes this block element belongs to
  let B : Fin 16 := ⟨win0_1.index t (0 : Fin 4), by omega⟩
  let C : Fin 64 := ⟨win0_1.index t (1 : Fin 4) * 32 + c'.val, by omega⟩
  have hout : ((cfg0.win 1).blk t).view.emb (ix4 (0 : Fin 1) c' i j) = ix4 B C i j := by
    funext a; apply Fin.ext
    match a with
    | ⟨0, _⟩ => show win0_1.index t (0 : Fin 4) * 1 + 1 * 0 = win0_1.index t (0 : Fin 4); omega
    | ⟨1, _⟩ => show win0_1.index t (1 : Fin 4) * 32 + 1 * c'.val = win0_1.index t (1 : Fin 4) * 32 + c'.val; omega
    | ⟨2, _⟩ => show win0_1.index t (2 : Fin 4) * 128 + 1 * i.val = i.val; omega
    | ⟨3, _⟩ => show win0_1.index t (3 : Fin 4) * 128 + 1 * j.val = j.val; omega
  show out0_1 (((cfg0.win 0).blk t).view.read (Elt Ideal) A) (ix4 (0 : Fin 1) c' i j)
    = poolOf A (((cfg0.win 1).blk t).view.emb (ix4 (0 : Fin 1) c' i j))
  rw [hout]
  refine (out_block_apply _ c' i j).trans ?_
  show _ = poolAt A B C i j
  unfold poolAt
  refine Finset.fold_congr (fun t' _ => ?_)
  have ht' := t'.isLt
  have hin : ((cfg0.win 0).blk t).view.emb (ix5 (0 : Fin 1) c' t' i j) = ix5 B C t' i j := by
    funext a; apply Fin.ext
    match a with
    | ⟨0, _⟩ => show win0_0.index t (0 : Fin 5) * 1 + 1 * 0 = win0_1.index t (0 : Fin 4); omega
    | ⟨1, _⟩ => show win0_0.index t (1 : Fin 5) * 32 + 1 * c'.val = win0_1.index t (1 : Fin 4) * 32 + c'.val; omega
    | ⟨2, _⟩ => show win0_0.index t (2 : Fin 5) * 4 + 1 * t'.val = t'.val; omega
    | ⟨3, _⟩ => show win0_0.index t (3 : Fin 5) * 128 + 1 * i.val = i.val; omega
    | ⟨4, _⟩ => show win0_0.index t (4 : Fin 5) * 128 + 1 * j.val = j.val; omega
  show A (((cfg0.win 0).blk t).view.emb (ix5 (0 : Fin 1) c' t' i j)) = A (ix5 B C t' i j)
  rw [hin]

/-- The maximum over the taps of the staged array is `result` of the arguments. -/
theorem poolOf_gathered (x : FVec Ideal S16x64x256x256 .f32) (idx : IVec S128x128x4 32) :
    poolOf (gathered x idx) = result x idx := by
  funext y
  obtain ⟨b, c, i, j, rfl⟩ : ∃ (b : Fin 16) (c : Fin 64) (i j : Fin 128), y = ix4 b c i j :=
    ⟨y 0, y 1, y 2, y 3, eq_ix4 y⟩
  show poolAt (gathered x idx) b c i j = pooled _ idx b c i j
  unfold poolAt pooled
  refine Finset.fold_congr (fun t _ => ?_)
  exact gathered_apply x idx b c t i j

section Run
variable (m : (ℓ : Loc nD τ sig) → Buf (Elt Ideal) ℓ) (ρ : Dev nD → PrngReg)

/-- What point `t` writes back is block `t` of `result` of the arguments. -/
theorem flushed_eq (c : Dev nD) (t : Fin cfg0.N) :
    (dats m 0 c).flushed 1 t = ((cfg0.win 1).blk t).view.read (Elt Ideal)
      (result (m ((c : Thread nD τ).loc main_arg0)) (m ((c : Thread nD τ).loc main_arg1))) := by
  show (cfg0.win 1).cut (grid0.coords t) ((dats m 0 c).after 1 t) = _
  rw [after0_1]
  unfold iblk
  rw [V_window0, block_of_pool, poolOf_gathered]

/-- An index of the output array is in point `t`'s block iff each coordinate is in the block's range on its axis. -/
theorem mem_blk (t : Fin cfg0.N) (y : S16x64x128x128.Idx) :
    y ∈ ((cfg0.win 1).blk t).view.set ↔ ∀ a : Fin 4, win0_1.index t a * S1x32x128x128.size a ≤ (y a).val
      ∧ (y a).val < win0_1.index t a * S1x32x128x128.size a + S1x32x128x128.size a := by
  show y ∈ ((View.whole main_v5).slice (win0_1.rect t)).set ↔ _
  rw [View.set_slice_whole, Rect.mem_set_unit]
  exact Iff.rfl

/-- The output's blocks tile its array: plane `(b, c)` lies in the block of point `(b, c / 32)`. -/
theorem cover (y : S16x64x128x128.Idx) :
    ∃ t : Fin cfg0.N, (cfg0.win 1).flush t = true ∧ y ∈ ((cfg0.win 1).blk t).view.set := by
  have h0 : (y 0).val < 16 := (y 0).isLt
  have h1 : (y 1).val < 64 := (y 1).isLt
  have h2 : (y 2).val < 128 := (y 2).isLt
  have h3 : (y 3).val < 128 := (y 3).isLt
  obtain ⟨t, ht⟩ := idx_onto ⟨(y 0).val, h0⟩ ⟨(y 1).val / 32, by omega⟩
  have q0 : win0_1.index t (0 : Fin 4) = (y 0).val := congrFun ht 0
  have q1 : win0_1.index t (1 : Fin 4) = (y 1).val / 32 := congrFun ht 1
  have q2 : win0_1.index t (2 : Fin 4) = 0 := congrFun ht 2
  have q3 : win0_1.index t (3 : Fin 4) = 0 := congrFun ht 3
  refine ⟨t, flush0_1 t, ?_⟩
  rw [mem_blk]
  intro a
  match a with
  | ⟨0, _⟩ => show win0_1.index t (0 : Fin 4) * 1 ≤ (y 0).val ∧ (y 0).val < win0_1.index t (0 : Fin 4) * 1 + 1; omega
  | ⟨1, _⟩ => show win0_1.index t (1 : Fin 4) * 32 ≤ (y 1).val ∧ (y 1).val < win0_1.index t (1 : Fin 4) * 32 + 32; omega
  | ⟨2, _⟩ => show win0_1.index t (2 : Fin 4) * 128 ≤ (y 2).val ∧ (y 2).val < win0_1.index t (2 : Fin 4) * 128 + 128; omega
  | ⟨3, _⟩ => show win0_1.index t (3 : Fin 4) * 128 ≤ (y 3).val ∧ (y 3).val < win0_1.index t (3 : Fin 4) * 128 + 128; omega

/-- So the output array ends holding `result` of the arguments. -/
theorem final (c : Dev nD) :
    (dats m 0 c).arrAt 1 cfg0.N = result (m ((c : Thread nD τ).loc main_arg0)) (m ((c : Thread nD τ).loc main_arg1)) :=
  (dats m 0 c).arrAt_eq_of_cover 1 _ (fun t _ => flushed_eq m c t) cover

/-- The kernel's run, read: the output array at `result` of the arguments as launched, the arguments unchanged. -/
theorem run : θ_run defs (onTc (τ := τ) (main (F := Ideal))) ⟨m, fun _ => 0, ρ⟩ fun r => ∀ c : Dev nD,
      r.2.mem ((c : Thread nD τ).loc main_v5) = result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 1).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩)
    (run_main m ρ)

end Run

end Cert.KernelIdeal.KValue

end
-- ==== Proof.RefRun.lean ====
/-
  The reference program's run, read back.

  The reference flattens the image planes to `[16, 64, 65536]` and the index table to one vector of 65536
  positions (row-major over (i, j, t)), takes the planes at those positions — jnp's take in "fill" mode: a
  negative position is first shifted up by the axis length, the gather clamps, and a position still outside
  `[0, 65535]` reads the fill value instead —, regroups the result as `[16, 64, 128, 128, 4]` and reduces the last
  axis by maximum from −∞.  Here its @main is listed as one straight line of host operations, the take's and the
  select's lines at their call sites over the call's buffers, and every weakly fair execution is shown to end with
  the result buffer at the composition of those operations applied to the two argument arrays, the arguments unchanged.
-/
import proofs.«422887_j22290880266905_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's twenty-eight operations in order: the two reshapes, the take's twenty-three (the select that shifts a
    negative position among them), the regrouping reshape, −∞, the maximum over the last axis. -/
abbrev ops : List (HloOp τ sig (Elt F)) :=
  [ reshape main_arg0 main_v0 rfl shapeCasts_S16x64x256x256_S16x64x65536,
    reshape main_arg1 main_v1 rfl shapeCasts_S128x128x4_S65536,
    TRef.nullary main_call0.c (constantI S_ 32 0#32),
    TRef.unary main_call0.c main_call0.v0 (broadcastInDim S65536 ![] bcast_S_S65536),
    TRef.binary (.of main_v1) main_call0.v0 main_call0.v1 (cmpi .slt),
    TRef.nullary main_call0.c_0 (constantI S_ 32 65536#32),
    TRef.unary main_call0.c_0 main_call0.v2 (broadcastInDim S65536 ![] bcast_S_S65536),
    TRef.binary (.of main_v1) main_call0.v2 main_call0.v3 addi,
    TRef.ternary main_call0.v1 main_call0.v3 (.of main_v1) main_call0.call0.v0 select,
    TRef.unary main_call0.call0.v0 main_call0.v5 (broadcastInDim S65536x1 ![0] bcast_S65536_S65536x1_0),
    TRef.nullary main_call0.c_1 (constantI S1 32 65535#32),
    TRef.nullary main_call0.c_2 (constantI S_ 32 0#32),
    TRef.unary main_call0.c_2 main_call0.v6 (broadcastInDim S65536x1 ![] bcast_S_S65536x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S65536x1 ![0, 1] bcast_S1x1_S65536x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S65536x1_S65536_d1 h_S_),
    TRef.binary (.of main_v0) main_call0.v5 main_call0.v13 (fun x i => Host.gather gather_S16x64x65536_S65536x1_S16x64x65536_01_2_n_n_2_1_16641 x i),
    TRef.unary main_call0.v12 main_call0.v14 (broadcastInDim S16x64x65536 ![2] bcast_S65536_S16x64x65536_2),
    TRef.nullary main_call0.cst (constant S_ .f32 0x7FC00000#32),
    TRef.unary main_call0.cst main_call0.v15 (broadcastInDim S16x64x65536 ![] bcast_S_S16x64x65536),
    TRef.ternary main_call0.v14 main_call0.v13 main_call0.v15 main_call0.v16 select,
    reshape main_v2 main_v3 rfl shapeCasts_S16x64x65536_S16x64x128x128x4,
    nullary main_cst (constant S_ .f32 0xFF800000#32),
    binary main_v3 main_cst main_v4 ((fun x v => Host.reduce FloatOps.maximumf x v reducesTo_S16x64x128x128x4_S16x64x128x128_d4 h_S_) : (⟨S16x64x128x128x4, .f32⟩ : BufTy).Contents (Elt F) → (⟨S_, .f32⟩ : BufTy).Contents (Elt F) → (⟨S16x64x128x128, .f32⟩ : BufTy).Contents (Elt F)) ]

set_option maxRecDepth 1024 in
/-- @main is that straight line: the two functions' definitions unfolded at their calls, both sides are one chain of
    host steps once the sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., reshape_bufs_sub .., nullary_bufs_sub .., unary_bufs_sub .., binary_bufs_sub .., nullary_bufs_sub ..,
    unary_bufs_sub .., binary_bufs_sub .., ternary_bufs_sub .., unary_bufs_sub .., nullary_bufs_sub .., nullary_bufs_sub ..,
    unary_bufs_sub .., binary_bufs_sub .., unary_bufs_sub .., unary_bufs_sub .., binary_bufs_sub .., binary_bufs_sub ..,
    nullary_bufs_sub .., binary_bufs_sub .., binary_bufs_sub .., unary_bufs_sub .., nullary_bufs_sub .., unary_bufs_sub ..,
    ternary_bufs_sub .., reshape_bufs_sub .., nullary_bufs_sub .., binary_bufs_sub ..⟩

/-- Every weakly fair execution of @main terminates, and every final state has each buffer at the operations' fold
    over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefValue.lean ====
/-
  What the reference computes, index by index.

  The reference's run ends with its result buffer at the maximum over the last axis, from −∞, of the take of the
  flattened planes at the flattened index table, regrouped as `[16, 64, 128, 128, 4]` (`refOut`, the run's fold
  read back).  At the extended reals that maximum over one axis is the fold of `max` over the axis's four
  coordinates; the regrouping puts element `(i, j, t)` of the table at position `512 i + 4 j + t` of the vector
  and of the take's last axis, and the take is local in the positions.  So result element `(b, c, i, j)` is the
  maximum, from −∞, over the four taps `t` of the take of plane `(b, c)` at the position word `idx[i, j, t]`:
  `pooled`.
-/
import proofs.«422887_j22290880266905_3_alg».proof.Proof.RefRun
import proofs.«422887_j22290880266905_3_alg».proof.Proof.TakeChain
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.Hand.Take Cert.Hand.Pool

variable {F : FTy → Type} [FloatOps F]

/-- The reference's result as one term of its two arguments. -/
def refOut (x : FVec F S16x64x256x256 .f32) (idx : IVec S128x128x4 32) : FVec F S16x64x128x128 .f32 :=
  Host.reduce FloatOps.maximumf
    (shapeCast S16x64x128x128x4
      (takeFill (shapeCast S16x64x65536 x shapeCasts_S16x64x256x256_S16x64x65536) (shapeCast S65536 idx shapeCasts_S128x128x4_S65536))
      shapeCasts_S16x64x65536_S16x64x128x128x4)
    (constant S_ .f32 0xFF800000#32) reducesTo_S16x64x128x128x4_S16x64x128x128_d4 h_S_

attribute [local irreducible] Host.reduce Host.gather in
set_option maxHeartbeats 1000000 in
/-- The operations' fold at the result buffer is `refOut` of the arguments' contents. -/
theorem out_eq (V : Valuation τ sig (Elt F)) :
    after RefRun.ops V (main_v4 : DevRef τ sig) = refOut (V (main_arg0 : DevRef τ sig)) (V (main_arg1 : DevRef τ sig)) := by
  after_results_simp
  simp only [TRef.ofBuf, TRef.toBuf, cast_eq]
  unfold refOut takeFill inRange column shifted
  rfl

theorem arg0_eq (V : Valuation τ sig (Elt F)) : after RefRun.ops V (main_arg0 : DevRef τ sig) = V (main_arg0 : DevRef τ sig) := by
  after_results_simp

theorem arg1_eq (V : Valuation τ sig (Elt F)) : after RefRun.ops V (main_arg1 : DevRef τ sig) = V (main_arg1 : DevRef τ sig) := by
  after_results_simp

/-- Every weakly fair execution of the reference terminates with the result at `refOut` of the arguments as
    launched, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v4) = refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v4).trans (out_eq _), (h c main_arg0).trans (arg0_eq _), (h c main_arg1).trans (arg1_eq _)⟩)
    (RefRun.run_fold m ρ)

/-! ## The result at an index, at the extended reals -/

theorem red5 : S16x64x128x128x4.Reduces [4] S16x64x128x128 := by decide

/-- The source index over result index `(b, c, i, j)` with tap coordinate `t` inserted on the reduced axis. -/
theorem lift5 (b : Fin 16) (c : Fin 64) (i j : Fin 128) (t : Fin (S16x64x128x128x4.size 4)) :
    red5.lift (ix4 b c i j) t = ix5 b c i j (⟨t.val, t.isLt⟩ : Fin 4) := by
  funext a; apply Fin.ext
  show red5.liftVal (ix4 b c i j) t.val a = _
  unfold Shape.Reduces.liftVal
  match a with
  | ⟨0, _⟩ => rfl
  | ⟨1, _⟩ => rfl
  | ⟨2, _⟩ => rfl
  | ⟨3, _⟩ => rfl
  | ⟨4, _⟩ => rfl

/-- The host's maximum over the last axis from −∞, at the extended reals: the fold of `max` over the four taps. -/
theorem hostMax_apply (X : FVec Ideal S16x64x128x128x4 .f32) (b : Fin 16) (c : Fin 64) (i j : Fin 128) :
    Host.reduce FloatOps.maximumf X (constant S_ .f32 0xFF800000#32) reducesTo_S16x64x128x128x4_S16x64x128x128_d4 h_S_ (ix4 b c i j)
      = (Finset.univ : Finset (Fin 4)).fold max (Ideal.ofBits .f32 0xFF800000#32) (fun t => X (ix5 b c i j t)) := by
  rw [Host.reduce_eq_fold_single FloatOps.maximumf X _ reducesTo_S16x64x128x128x4_S16x64x128x128_d4 red5 h_S_ (ix4 b c i j)]
  refine Finset.fold_congr (fun t _ => ?_)
  exact congrArg X (lift5 b c i j t)

/-- The reference's result element `(b, c, i, j)` is `pooled` of the flattened planes and the index table. -/
theorem refOut_apply (x : FVec Ideal S16x64x256x256 .f32) (idx : IVec S128x128x4 32) (b : Fin 16) (c : Fin 64) (i j : Fin 128) :
    refOut (F := Ideal) x idx (ix4 b c i j)
      = pooled (shapeCast S16x64x65536 x shapeCasts_S16x64x256x256_S16x64x65536) idx b c i j := by
  unfold refOut pooled
  refine (hostMax_apply _ b c i j).trans ?_
  refine Finset.fold_congr (fun t _ => ?_)
  have hb := b.isLt; have hc := c.isLt; have hi := i.isLt; have hj := j.isLt; have ht := t.isLt
  show shapeCast S16x64x128x128x4 (takeFill _ _) shapeCasts_S16x64x65536_S16x64x128x128x4 (ix5 b c i j t)
    = takeAt _ b c (idx (ix3 i j t))
  refine (shapeCast_apply _ shapeCasts_S16x64x65536_S16x64x128x128x4 _
    (ix3 b c (⟨i.val * 512 + j.val * 4 + t.val, by omega⟩ : Fin 65536)) (by
      rw [Shape.rowMajor_val_three, Shape.rowMajor_val_five]
      show (b.val * 64 + c.val) * 65536 + (i.val * 512 + j.val * 4 + t.val)
        = (((b.val * 64 + c.val) * 128 + i.val) * 128 + j.val) * 4 + t.val
      omega)).trans ?_
  rw [takeFill_apply]
  refine congrArg (takeAt _ b c) ?_
  exact shapeCast_apply idx shapeCasts_S128x128x4_S65536 _ (ix3 i j t) (by
    rw [Shape.rowMajor_val_three, Shape.rowMajor_val_one]
    show (i.val * 128 + j.val) * 4 + t.val = i.val * 512 + j.val * 4 + t.val
    omega)

/-- So the reference's result array is `result` of its arguments. -/
theorem refOut_eq_result (x : FVec Ideal S16x64x256x256 .f32) (idx : IVec S128x128x4 32) :
    refOut (F := Ideal) x idx = result x idx := by
  funext y
  obtain ⟨b, c, i, j, rfl⟩ : ∃ (b : Fin 16) (c : Fin 64) (i j : Fin 128), y = ix4 b c i j :=
    ⟨y 0, y 1, y 2, y 3, eq_ix4 y⟩
  exact refOut_apply x idx b c i j

end Cert.ReferenceIdeal.RefValue

end
-- ==== Proof.lean ====
/-
  A gathered 2×2 max-pool: the kernel against its jnp reference, over the extended reals.

  Both programs read an image `x : f32[16, 64, 256, 256]` and a table of positions `idx : i32[128, 128, 4]`, take
  each plane `x[b, c]`, flattened to 65536 pixels, at the four positions `idx[i, j, ·]` and keep the largest:
  `out[b, c, i, j] = max_t take(x[b, c], idx[i, j, t])`, the maximum starting from −∞.  The take is jnp's in "fill"
  mode — a negative position is shifted up by 65536, the gather clamps, and a position still outside the plane reads
  a fill value instead — and is the SAME chain of host operations in both programs; it is local in the positions
  (`Cert.Hand.Take.takeFill_apply`), so only the layout of the positions differs.  The reference takes at the table
  flattened row-major, `(i, j, t)` at `512 i + 4 j + t`, regroups to `[16, 64, 128, 128, 4]` and reduces the last axis
  on the host; the kernel takes at the table transposed tap-major, `(i, j, t)` at `16384 t + 128 i + j`, regroups to
  `[16, 64, 4, 128, 128]` and reduces the tap axis block by block in a pallas_call over a `16 × 2` grid.  At the
  extended reals either maximum over one axis is the fold of `max` over the axis's four coordinates, so both result
  arrays are one function of the arguments, `Cert.Hand.Pool.result` (the kernel: Proof/KernelValue.lean over the
  generated frame run; the reference: Proof/RefRun.lean and Proof/RefValue.lean).  No law of the extended reals beyond
  the commutativity and associativity of `max` enters, so the finiteness of `x` is never used: the position words
  are arbitrary, and whatever the fill value's word denotes it is the same on both sides.
  The ideal pass rewrote nothing, so the idealized kernel is the kernel's own text read at the extended reals and
  `preserves` has nothing to state.
-/
import proofs.«422887_j22290880266905_3_alg».proof.Defs
import proofs.«422887_j22290880266905_3_alg».proof.Proof.Gen.Kernel
import proofs.«422887_j22290880266905_3_alg».proof.Proof.Gen.Kernel.Frame
import proofs.«422887_j22290880266905_3_alg».proof.Proof.Gen.KernelIdeal
import proofs.«422887_j22290880266905_3_alg».proof.Proof.Gen.KernelIdeal.Frame
import proofs.«422887_j22290880266905_3_alg».proof.Proof.Gen.ReferenceIdeal
import proofs.«422887_j22290880266905_3_alg».proof.Proof.Gen.Pre_finite_inputs
import proofs.«422887_j22290880266905_3_alg».proof.Proof.KernelValue
import proofs.«422887_j22290880266905_3_alg».proof.Proof.RefValue

noncomputable section

namespace Cert.Proof

open Idealize.ShloMosaic Idealize.ShloMosaic.TcCoe Idealize.SL.Sem

/-- The kernel as printed runs and leaves its arguments as they were: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.RefValue.run (F := Ideal) m ρ)

/-- The ideal pass rewrote no operation. -/
theorem preserves : Cert.preserves_Kernel_KernelIdeal := trivial

/-- From memories agreeing on the arguments both programs end with their result arrays at `result` of the
    arguments: the kernel by its run read block by block, the reference by its run read at an index. -/
theorem algebraic : Cert.algebraic_KernelIdeal_ReferenceIdeal := by
  intro m ρ m' ρ' _ hagree
  refine ⟨fun c => Cert.Hand.Pool.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KValue.run m ρ, ?_⟩
  refine (θ_run Cert.ReferenceIdeal.defs _ _).mono (fun _ h c => ⟨(h c).1.trans ?_, (h c).2⟩)
    (Cert.ReferenceIdeal.RefValue.run (F := Ideal) m' ρ')
  rw [(hagree c).1, (hagree c).2]
  exact Cert.ReferenceIdeal.RefValue.refOut_eq_result _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
